-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16x1024x1024 .f32) (main_arg1 : FVec F S16x1024x1024 .f32) (main_arg2 : FVec F S16x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 22
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16x1024x1024, .bf16⟩
  | .hbm, ⟨22, _⟩ => ⟨S16384x1024, .bf16⟩
  | .hbm, ⟨23, _⟩ => ⟨S16x1024x1024, .bf16⟩
  | .hbm, ⟨24, _⟩ => ⟨S16x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S16x1024x1024_S16384x1024 : S16x1024x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S16x1024x1024 : S16384x1024.ShapeCasts S16x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .bf16 = 32 ∨ (Rect.block (s := S16384x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S16x1024x1024.size a
  hwx2_0 : ∀ i : grid2.Coords, EltTy.bits .bf16 = 32 ∨ (Rect.block (s := S16x1024x1024) S1x256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S16x1024x1024.size a
  hwx2_1 : ∀ i : grid2.Coords, EltTy.bits .bf16 = 32 ∨ (Rect.block (s := S16x1024x1024) S1x1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S16x1024x1024.size a
  hwx2_2 : ∀ i : grid2.Coords, EltTy.bits .f32 = 32 ∨ (Rect.block (s := S16x1024x1024) S1x1024x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256x1024.size a ≤ S16x1024x1024.size a
  hwx2_5 : ∀ i : grid2.Coords, EltTy.bits .f32 = 32 ∨ (Rect.block (s := S16x1024x1024) S1x256x1024.size (cc2_transform_5 i) (hinb2_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16x1024x1024, .f32⟩
  | .hbm, ⟨10, _⟩ => ⟨S1x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S1x1x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1024x1024, .f32⟩
  | .hbm, ⟨25, _⟩ => ⟨S16x1024x1024, .f32⟩
  | .hbm, ⟨26, _⟩ => ⟨S16x1024x1024, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S_, .f32⟩
  | .hbm, ⟨34, _⟩ => ⟨S_, .f32⟩
  | .hbm, ⟨35, _⟩ => ⟨S16x1024x1024, .f32⟩
  | .hbm, ⟨36, _⟩ => ⟨S16x1024x1024, .f32⟩
  | .hbm, ⟨37, _⟩ => ⟨S16x1024x1024, .f32⟩
  | .hbm, ⟨38, _⟩ => ⟨S1x1x1024, .f32⟩
  | .hbm, ⟨39, _⟩ => ⟨S16x1024x1024, .f32⟩
  | .hbm, ⟨40, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Spec.lean ====
/-
  The function both programs compute, stage by stage, over plain coordinate functions on the extended reals.

  An array of shape [16, 1024, 1024] is read as a function of its three coordinates (batch, row, column), and the
  function is stated one ROW at a time. With q = query · Wqᵀ + bq and k = keys · Wkᵀ + bk (a product along the last
  axis of both factors), row t of the scores of batch n pairs row t of q with every row of k, the row is shifted by its
  maximum, exponentiated and divided by its sum (a softmax along the key axis), the weights so obtained average the
  rows of values, the average is scaled by 1/32 = 1/√1024, and the result is projected by Wo with the bias bo added.

  The row maximum is kept in the form both programs take it in: the larger of a starting value z and the fold of
  max from z over the row. The starting value is the same word on both sides and is never evaluated.
-/
import Idealize.ShloMosaic.PureOps.Ideal
import Idealize.ShloMosaic.Lib.ValueIdx

noncomputable section

open scoped BigOperators

namespace Cert.AttnSpec

open Idealize.ShloMosaic Idealize.ShloMosaic.ValueIdx

/-- A [16, 1024, 1024] array by coordinates. -/
abbrev T3 := Fin 16 → Fin 1024 → Fin 1024 → EReal
/-- A [1024, 1024] matrix by coordinates. -/
abbrev M2 := Fin 1024 → Fin 1024 → EReal
/-- A row of 1024 entries. -/
abbrev Row := Fin 1024 → EReal

/-- One row of x · Wᵀ + b: entry o sums x(h) · W(o, h) over h and adds b(o). -/
def projRow (x : Row) (W : M2) (b : Row) : Row := fun o => (∑ h : Fin 1024, x h * W o h) + b o

/-- One row of q · kᵀ: entry s sums q(o) · k(s, o) over o. -/
def scoreRow (q : Row) (k : M2) : Row := fun s => ∑ o : Fin 1024, q o * k s o

/-- The maximum of a row, started from z and capped below by z once more. -/
def rowTop (z : EReal) (r : Row) : EReal := max z ((Finset.univ : Finset (Fin 1024)).fold max z r)

/-- The softmax of a row: each entry shifted by the row's maximum, exponentiated, over the sum of those. -/
def softRow (z : EReal) (r : Row) : Row :=
  fun s => Ideal.div (Ideal.exp (r s - rowTop z r)) (∑ s' : Fin 1024, Ideal.exp (r s' - rowTop z r))

/-- One row of a · v: entry h sums a(s) · v(s, h) over s. -/
def ctxRow (a : Row) (v : M2) : Row := fun h => ∑ s : Fin 1024, a s * v s h

/-- One row of (c · c32) · Wt + b, Wt given with the contracted coordinate first: entry o sums (c(h) · c32) · Wt(h, o). -/
def outRow (c : Row) (c32 : EReal) (Wt : M2) (b : Row) : Row := fun o => (∑ h : Fin 1024, (c h * c32) * Wt h o) + b o

/-- One output row from one projected query row q, the projected keys k and the values v of its batch. -/
def attnRow (z : EReal) (q : Row) (k v : M2) (c32 : EReal) (Wt : M2) (b : Row) : Row :=
  outRow (ctxRow (softRow z (scoreRow q k)) v) c32 Wt b

/-- The whole function of the nine arguments: row (n, t) of the result is the output row of query row (n, t)
    projected by Wq and bq, against the keys of batch n projected by Wk and bk, and the values of batch n. -/
def G (z : EReal) (query keys values : T3) (Wq : M2) (bq : Row) (Wk : M2) (bk : Row) (Wo : M2) (bo : Row) : T3 :=
  fun n t => attnRow z (projRow (query n t) Wq bq) (fun s => projRow (keys n s) Wk bk) (values n)
    ((1 / 32 : ℝ) : EReal) (fun h o => Wo o h) bo

/-! ## Arrays and functions of coordinates -/

/-- A [16, 1024, 1024] array read by coordinates. -/
def cur3 (x : (⟨3, ![16, 1024, 1024]⟩ : Shape).Idx → EReal) : T3 := fun n t o => x (ix3 n t o)
/-- A [1024, 1024] array read by coordinates. -/
def cur2 (x : (⟨2, ![1024, 1024]⟩ : Shape).Idx → EReal) : M2 := fun a b => x (ix2 a b)
/-- A [1024] array read by its coordinate. -/
def cur1 (x : (⟨1, ![1024]⟩ : Shape).Idx → EReal) : Row := fun a => x (ix1 a)
/-- A function of three coordinates as a [16, 1024, 1024] array. -/
def unc3 (f : T3) : (⟨3, ![16, 1024, 1024]⟩ : Shape).Idx → EReal := fun i => f (i 0) (i 1) (i 2)

theorem unc3_ix3 (f : T3) (n : Fin 16) (t o : Fin 1024) : unc3 f (ix3 n t o) = f n t o := rfl

/-! ## The two constants that meet at the scale -/

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3D000000 denotes 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by √1024 is multiplying by 1/32, on every extended real, the infinities included. -/
theorem div_sqrt_1024 (x : EReal) :
    Ideal.div x (Ideal.sqrt (Ideal.ofBits .f32 0x44800000#32)) = x * ((1 / 32 : ℝ) : EReal) := by
  rw [ofBits_1024, sqrt_1024]
  exact Ideal.div_coe (by norm_num) x

end Cert.AttnSpec

end
-- ==== Proof.LibColumn.lean ====
/-
  Small facts about indices, generic in the extents. Two layout operations read at an index, for the keep-dimension
  column a row reduction is broadcast back through: a vector of a entries cast to an [a, 1] column, and an [a, 1]
  column broadcast to [a, b]. And the index a reduction over the LAST axis inserts: over result index (a, b) the
  source index with coordinate k on the dropped axis is (a, b, k); over result index a it is (a, k). And an [a, b, c]
  array flattened to [a·b, c] or back: row i·b + j of the flat array is row (i, j) of the other.
-/
import Idealize.ShloMosaic.Lib.ValueIdx
import Idealize.ShloMosaic.Lib.Pipeline.Value
import Idealize.ShloMosaic.PureOps.Reduce

noncomputable section

namespace Cert.LibColumn

open Idealize.ShloMosaic Idealize.ShloMosaic.ValueIdx

variable {α : Type}

/-- An [a] array cast to [a, 1] reads, at (i, u), the operand at i, whatever the unit coordinate u: both indices sit
    at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p: the row coordinate is kept
    (when a = 1 it is 0 on both sides) and the unit axis reads 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An [a, b, c] array flattened to [m, c] reads, at (r, k) with r = i·b + j, the operand at (i, j, k): both indices
    sit at row-major position (i·b + j)·c + k. -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (i : Fin a) (j : Fin b)
    (hr : r.val = i.val * b + j.val) : shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [m, c] array unflattened to [a, b, c] reads, at (i, j, k), the operand at (r, k) with r = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- Reducing a rank-3 shape over its last axis: the source index over (a, b) with k on the dropped axis is (a, b, k). -/
theorem lift3_last {n0 n1 n2 : ℕ} (h : (⟨3, ![n0, n1, n2]⟩ : Shape).Reduces [2] ⟨2, ![n0, n1]⟩)
    (a : Fin n0) (b : Fin n1) (k : Fin n2) : h.lift (ix2 a b) k = ix3 a b k := by
  funext c
  apply Fin.ext
  show h.liftVal (ix2 a b) k.val c = (ix3 a b k c).val
  unfold Shape.Reduces.liftVal
  match c with
  | ⟨0, _⟩ => simp
  | ⟨1, _⟩ => simp
  | ⟨2, _⟩ => simp

/-- Reducing a rank-2 shape over its last axis: the source index over a with k on the dropped axis is (a, k). -/
theorem lift2_last {n0 n1 : ℕ} (h : (⟨2, ![n0, n1]⟩ : Shape).Reduces [1] ⟨1, ![n0]⟩)
    (a : Fin n0) (k : Fin n1) : h.lift (ix1 a) k = ix2 a k := by
  funext c
  apply Fin.ext
  show h.liftVal (ix1 a) k.val c = (ix2 a k c).val
  unfold Shape.Reduces.liftVal
  match c with
  | ⟨0, _⟩ => simp
  | ⟨1, _⟩ => simp

end Cert.LibColumn

end
-- ==== Proof.RefG.lean ====
/-
  The reference computes the function G of Spec.lean.

  Its program is read one operation at a time: each product along an axis is a sum over that axis's coordinate, each
  broadcast reads its operand at the kept coordinates, the row maximum is a fold of max over the row's coordinates,
  the row sum starts from the zero word, and the division by the square root of 1024 is the product with 1/32.
  Every stage is stated as an equation between whole arrays, the right side a stage of Spec.lean read at an index's
  three coordinates, so that a later stage rewrites the earlier ones inside it.
-/
import proofs.«116437_j17970143166479_1_alg».proof.Proof.Gen.ReferenceIdeal.Read
import proofs.«116437_j17970143166479_1_alg».proof.Proof.Spec
import Idealize.ShloMosaic.Lib.ValueIdx
import Idealize.ShloMosaic.PureOps.Ideal.Laws
import proofs.«116437_j17970143166479_1_alg».proof.Proof.LibColumn

noncomputable section

open scoped BigOperators

namespace Cert.RefG

open Idealize.ShloMosaic Idealize.ShloMosaic.ValueIdx Cert.AttnSpec
open Cert.ReferenceIdeal Cert.ReferenceIdeal.Gen Cert.ReferenceIdeal.Read

/-- Two indices are equal when they agree on every axis; the axes of a shape of rank at most three are listed. -/
macro "idx_ext" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)
  | exact a.elim0))

/-- The query projection: x · Wᵀ + b. -/
theorem v3_eq (x0 : S16x1024x1024.Idx → EReal) (x3 : S1024x1024.Idx → EReal) (x4 : S1024.Idx → EReal) :
    val_main_v3 (F := Ideal) x0 x3 x4 = unc3 (fun n t => projRow (cur3 x0 n t) (cur2 x3) (cur1 x4)) := by
  funext i
  obtain ⟨n, t, o, rfl⟩ : ∃ (n : Fin 16) (t o : Fin 1024), i = ix3 n t o := ⟨i 0, i 1, i 2, eq_ix3 i⟩
  rw [val_main_v3_apply, val_main_v0_apply, val_main_v2_apply, val_main_v1_apply]
  have el : ∀ k, lidx_main_v0 (ix3 n t o) k = ix3 n t k := fun k => by idx_ext
  have er : ∀ k, ridx_main_v0 (ix3 n t o) k = ix2 o k := fun k => by idx_ext
  have eb : idx_main_v1 (idx_main_v2 (ix3 n t o)) = ix1 o := by idx_ext
  simp only [el, er, eb]
  rfl

/-- The key projection: the same with the keys, Wk and bk. -/
theorem v7_eq (x1 : S16x1024x1024.Idx → EReal) (x5 : S1024x1024.Idx → EReal) (x6 : S1024.Idx → EReal) :
    val_main_v7 (F := Ideal) x1 x5 x6 = unc3 (fun n t => projRow (cur3 x1 n t) (cur2 x5) (cur1 x6)) := by
  funext i
  obtain ⟨n, t, o, rfl⟩ : ∃ (n : Fin 16) (t o : Fin 1024), i = ix3 n t o := ⟨i 0, i 1, i 2, eq_ix3 i⟩
  rw [val_main_v7_apply, val_main_v4_apply, val_main_v6_apply, val_main_v5_apply]
  have el : ∀ k, lidx_main_v4 (ix3 n t o) k = ix3 n t k := fun k => by idx_ext
  have er : ∀ k, ridx_main_v4 (ix3 n t o) k = ix2 o k := fun k => by idx_ext
  have eb : idx_main_v5 (idx_main_v6 (ix3 n t o)) = ix1 o := by idx_ext
  simp only [el, er, eb]
  rfl

/-- The host's maximum of a starting word and a fold of its own maximum over a row is the extended reals' max of the
    word's value and the fold of max: the instance's operation is max itself. -/
theorem hostMax_eq (w : BitVec 32) (zz : EReal) (f : Fin 1024 → EReal) :
    FloatOps.maximumf (F := Ideal) (φ := .f32) (FloatOps.ofBits .f32 w)
        ((Finset.univ : Finset (Fin 1024)).fold (FloatOps.maximumf (F := Ideal) (φ := .f32)) zz f)
      = max (Ideal.ofBits .f32 w) ((Finset.univ : Finset (Fin 1024)).fold max zz f) := rfl

section Chain

variable (x0 x1 x2 : S16x1024x1024.Idx → EReal) (x3 x5 x7 : S1024x1024.Idx → EReal) (x4 x6 x8 : S1024.Idx → EReal)

/-- The starting value of the row maximum: the word both programs spell, never evaluated. -/
abbrev z : EReal := Ideal.ofBits .f32 0xFF800000#32

/-- The scores of the two projections. -/
abbrev SC : T3 := fun n t => scoreRow (projRow (cur3 x0 n t) (cur2 x3) (cur1 x4)) (fun s => projRow (cur3 x1 n s) (cur2 x5) (cur1 x6))

/-- The scores: entry (n, t, s) pairs row t of the query projection with row s of the key projection. -/
theorem v8_eq : val_main_v8 (F := Ideal) x0 x1 x3 x4 x5 x6 = unc3 (SC x0 x1 x3 x5 x4 x6) := by
  funext i
  obtain ⟨n, t, s, rfl⟩ : ∃ (n : Fin 16) (t s : Fin 1024), i = ix3 n t s := ⟨i 0, i 1, i 2, eq_ix3 i⟩
  rw [val_main_v8_apply, v3_eq, v7_eq]
  have el : ∀ k, lidx_main_v8 (ix3 n t s) k = ix3 n t k := fun k => by idx_ext
  have er : ∀ k, ridx_main_v8 (ix3 n t s) k = ix3 n s k := fun k => by idx_ext
  simp only [el, er]
  rfl

/-- The row maximum: a fold of max over the row's 1024 coordinates from the starting value, then the larger of that
    and the starting value. -/
theorem v11_eq : val_main_v11 (F := Ideal) x0 x1 x3 x4 x5 x6
    = fun j => rowTop z (SC x0 x1 x3 x5 x4 x6 (j 0) (j 1)) := by
  funext j
  obtain ⟨n, t, rfl⟩ : ∃ (n : Fin 16) (t : Fin 1024), j = ix2 n t := ⟨j 0, j 1, eq_ix2 j⟩
  have h : Shape.Reduces S16x1024x1024 [2] S16x1024 := by decide
  rw [val_main_v11_apply, val_main_v10_apply, val_main_cst_0_apply]
  unfold val_main_v9
  rw [Host.reduce_eq_fold_single FloatOps.maximumf _ _ reducesTo_S16x1024x1024_S16x1024_d2 h h_S_, v8_eq]
  have e : ∀ k, (unc3 (SC x0 x1 x3 x5 x4 x6) ∘ h.lift (ix2 n t)) k = SC x0 x1 x3 x5 x4 x6 n t k := fun k => by
    show unc3 (SC x0 x1 x3 x5 x4 x6) (h.lift (ix2 n t) k) = _
    rw [Cert.LibColumn.lift3_last h n t k]
    exact unc3_ix3 _ n t k
  rw [show (unc3 (SC x0 x1 x3 x5 x4 x6) ∘ h.lift (ix2 n t)) = fun s => SC x0 x1 x3 x5 x4 x6 n t s from funext e]
  unfold rowTop
  exact hostMax_eq _ _ _

/-- The shifted exponentials. -/
theorem v15_eq : val_main_v15 (F := Ideal) x0 x1 x3 x4 x5 x6 = unc3 (fun n t s => Ideal.exp (SC x0 x1 x3 x5 x4 x6 n t s - rowTop z (SC x0 x1 x3 x5 x4 x6 n t))) := by
  funext i
  obtain ⟨n, t, s, rfl⟩ : ∃ (n : Fin 16) (t s : Fin 1024), i = ix3 n t s := ⟨i 0, i 1, i 2, eq_ix3 i⟩
  rw [val_main_v15_apply, val_main_v14_apply, val_main_v13_apply, val_main_v12_apply, v11_eq, v8_eq]
  rfl

/-- The row sums of the shifted exponentials: the zero word plus the sum over the row. -/
theorem v16_eq : val_main_v16 (F := Ideal) x0 x1 x3 x4 x5 x6
    = fun j => ∑ s : Fin 1024, Ideal.exp (SC x0 x1 x3 x5 x4 x6 (j 0) (j 1) s - rowTop z (SC x0 x1 x3 x5 x4 x6 (j 0) (j 1))) := by
  funext j
  obtain ⟨n, t, rfl⟩ : ∃ (n : Fin 16) (t : Fin 1024), j = ix2 n t := ⟨j 0, j 1, eq_ix2 j⟩
  rw [val_main_v16_apply, v15_eq]
  have e : ∀ k, idx_main_v16 (ix2 n t) k = ix3 n t k := fun k => by idx_ext
  simp only [e]
  show Ideal.ofBits .f32 0x00000000#32 + _ = _
  rw [Ideal.ofBits_zero_f32, zero_add]
  rfl

/-- The softmax weights. -/
theorem v19_eq : val_main_v19 (F := Ideal) x0 x1 x3 x4 x5 x6 = unc3 (fun n t => softRow z (SC x0 x1 x3 x5 x4 x6 n t)) := by
  funext i
  obtain ⟨n, t, s, rfl⟩ : ∃ (n : Fin 16) (t s : Fin 1024), i = ix3 n t s := ⟨i 0, i 1, i 2, eq_ix3 i⟩
  rw [val_main_v19_apply, val_main_v18_apply, val_main_v17_apply, v16_eq, v15_eq]
  rfl

/-- The weighted average of the rows of values. -/
theorem v20_eq : val_main_v20 (F := Ideal) x0 x1 x2 x3 x4 x5 x6
    = unc3 (fun n t => ctxRow (softRow z (SC x0 x1 x3 x5 x4 x6 n t)) (cur3 x2 n)) := by
  funext i
  obtain ⟨n, t, h, rfl⟩ : ∃ (n : Fin 16) (t h : Fin 1024), i = ix3 n t h := ⟨i 0, i 1, i 2, eq_ix3 i⟩
  rw [val_main_v20_apply, v19_eq]
  have el : ∀ k, lidx_main_v20 (ix3 n t h) k = ix3 n t k := fun k => by idx_ext
  have er : ∀ k, ridx_main_v20 (ix3 n t h) k = ix3 n k h := fun k => by idx_ext
  simp only [el, er]
  rfl

/-- The average divided by the square root of 1024, which is its product with 1/32. -/
theorem v23_eq : val_main_v23 (F := Ideal) x0 x1 x2 x3 x4 x5 x6
    = unc3 (fun n t h => ctxRow (softRow z (SC x0 x1 x3 x5 x4 x6 n t)) (cur3 x2 n) h * ((1 / 32 : ℝ) : EReal)) := by
  funext i
  obtain ⟨n, t, h, rfl⟩ : ∃ (n : Fin 16) (t h : Fin 1024), i = ix3 n t h := ⟨i 0, i 1, i 2, eq_ix3 i⟩
  rw [val_main_v23_apply, val_main_v22_apply, val_main_v21_apply, val_main_cst_2_apply, v20_eq]
  exact div_sqrt_1024 _

/-- The output projection: the whole function G. -/
theorem v27_eq : val_main_v27 (F := Ideal) x0 x1 x2 x3 x4 x5 x6 x7 x8
    = unc3 (G z (cur3 x0) (cur3 x1) (cur3 x2) (cur2 x3) (cur1 x4) (cur2 x5) (cur1 x6) (cur2 x7) (cur1 x8)) := by
  funext i
  obtain ⟨n, t, o, rfl⟩ : ∃ (n : Fin 16) (t o : Fin 1024), i = ix3 n t o := ⟨i 0, i 1, i 2, eq_ix3 i⟩
  rw [val_main_v27_apply, val_main_v24_apply, val_main_v26_apply, val_main_v25_apply, v23_eq]
  have el : ∀ k, lidx_main_v24 (ix3 n t o) k = ix3 n t k := fun k => by idx_ext
  have er : ∀ k, ridx_main_v24 (ix3 n t o) k = ix2 o k := fun k => by idx_ext
  have eb : idx_main_v25 (idx_main_v26 (ix3 n t o)) = ix1 o := by idx_ext
  simp only [el, er, eb]
  rfl

end Chain

end Cert.RefG

end
-- ==== Proof.LinBody.lean ====
/-
  What one grid point of a projection kernel computes, at the extended reals.

  The body loads a block x of 1024 rows, the whole matrix w and the bias row b, and stores x · w + b, the bias added to
  every row. Read at entry (p, o): the sum over k of x(p, k) · w(k, o), plus b(0, o). The narrowing to sixteen bits
  before the product and before the store changes nothing at the extended reals, and the product into a zero
  accumulator is the bare sum.
-/
import proofs.«116437_j17970143166479_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The plain product of a [1024, 1024] block with a [1024, 1024] matrix: its operand indices -/

theorem lhsP_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsP_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsP_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsP_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator, read at (p, o): the sum over k of l(p, k) · r(k, o). -/
theorem matmulP_apply {φ₁ φ₂ : FTy} (l : FVec Ideal S1024x1024 φ₁) (r : FVec Ideal S1024x1024 φ₂) (p o : Fin 1024) :
    matmul dot_S1024x1024_S1024x1024_S1024x1024_1_0_0_1_n_n none l r (constant S1024x1024 .f32 0x00000000#32) (ix2 p o)
      = ∑ k : Fin 1024, l (ix2 p k) * r (ix2 k o) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p o) ((contrEquiv1 dot_S1024x1024_S1024x1024_S1024x1024_1_0_0_1_n_n 1024 rfl rfl).symm k) = ix2 p k := funext fun a => Fin.ext (by
    match a with
    | ⟨0, _⟩ => exact lhsP_0 _ _
    | ⟨1, _⟩ => exact (lhsP_1 _ _).trans hk)
  have er : dot_S1024x1024_S1024x1024_S1024x1024_1_0_0_1_n_n.rhsIdx (ix2 p o) ((contrEquiv1 dot_S1024x1024_S1024x1024_S1024x1024_1_0_0_1_n_n 1024 rfl rfl).symm k) = ix2 k o := funext fun a => Fin.ext (by
    match a with
    | ⟨0, _⟩ => exact (rhsP_0 _ _).trans hk
    | ⟨1, _⟩ => exact rhsP_1 _ _)
  rw [el, er]

/-- The first projection kernel's stored value at (p, o). -/
theorem lin0_pay (v0 : Vec Ideal S1024x1024 .f32) (v3 : Vec Ideal S1024x1024 .bf16) (v5 : Vec Ideal S1x1024 .f32) (p o : Fin 1024) :
    k0_pay1 (F := Ideal) v0 v3 v5 (ix2 p o) = (∑ k : Fin 1024, v0 (ix2 p k) * v3 (ix2 k o)) + v5 (ix2 (0 : Fin 1) o) := by
  unfold k0_pay1
  rw [truncf_apply, addf_apply, matmulP_apply, broadcastTo_1b_ab_apply]
  simp only [shapeCast_self, truncf_apply]

/-- The second projection kernel's stored value at (p, o): the same function of its own blocks. -/
theorem lin1_pay (v0 : Vec Ideal S1024x1024 .f32) (v3 : Vec Ideal S1024x1024 .bf16) (v5 : Vec Ideal S1x1024 .f32) (p o : Fin 1024) :
    k1_pay1 (F := Ideal) v0 v3 v5 (ix2 p o) = (∑ k : Fin 1024, v0 (ix2 p k) * v3 (ix2 k o)) + v5 (ix2 (0 : Fin 1) o) := by
  unfold k1_pay1
  rw [truncf_apply, addf_apply, matmulP_apply, broadcastTo_1b_ab_apply]
  simp only [shapeCast_self, truncf_apply]

end Cert.KernelIdeal.Body

end
-- ==== Proof.Lin0Value.lean ====
/-
  What the first projection region leaves in its result array, as one function of the arrays it is entered with.

  The region runs 16 grid points. Point t reads rows 1024·t … 1024·t + 1023 of the flattened input x, the whole
  matrix w and the bias row b, and writes back the same rows of the result. So entry (r, o) of the result, whichever
  point covers row r, is the sum over k of x(r, k) · w(k, o), plus b(0, o): the blocks tile the array, each is the
  restriction of that one function, and together they cover it.
-/
import proofs.«116437_j17970143166479_1_alg».proof.Proof.Gen.KernelIdeal.Frame
import proofs.«116437_j17970143166479_1_alg».proof.Proof.LinBody

set_option maxRecDepth 16384

noncomputable section

open scoped BigOperators

namespace Cert.KernelIdeal.Lin0Value

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (r, o) of rows · matrix + bias row. -/
def linAt (x : S16384x1024.Idx → EReal) (w : S1024x1024.Idx → EReal) (b : S1x1024.Idx → EReal)
    (r : Fin 16384) (o : Fin 1024) : EReal :=
  (∑ k : Fin 1024, x (ix2 r k) * w (ix2 k o)) + b (ix2 (0 : Fin 1) o)

/-- The whole result array. -/
def lin (x : S16384x1024.Idx → EReal) (w : S1024x1024.Idx → EReal) (b : S1x1024.Idx → EReal) : S16384x1024.Idx → EReal :=
  fun i => linAt x w b (i 0) (i 1)

/-- The printed index maps over the 16 points: the input and the result move one block of rows per point, the matrix
    and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t, entry (p, k), is the input's entry (1024·t + p, k). -/
theorem blk_x (c : Dev nD) (t : Fin cfg0.N) (p k : Fin 1024) (r : Fin 16384) (hr : r.val = t.val * 1024 + p.val) :
    (iblk0 V c 0 t : Vec Ideal S1024x1024 .f32) (ix2 p k) = (V c main_v9 : S16384x1024.Idx → EReal) (ix2 r k) := by
  obtain ⟨e0, e1, -⟩ := idx_facts t
  unfold iblk0
  rw [View.read_apply]
  show V c main_v9 _ = V c main_v9 _
  congr 1
  funext a
  apply Fin.ext
  match a with
  | ⟨0, _⟩ => show win0_0.index t 0 * 1024 + 1 * p.val = r.val; rw [e0, hr]; omega
  | ⟨1, _⟩ => show win0_0.index t 1 * 1024 + 1 * k.val = k.val; rw [e1]; omega

/-- The matrix block at any point is the whole matrix. -/
theorem blk_w (c : Dev nD) (t : Fin cfg0.N) (k o : Fin 1024) :
    (iblk0 V c 1 t : Vec Ideal S1024x1024 .bf16) (ix2 k o) = (V c main_v1 : S1024x1024.Idx → EReal) (ix2 k o) := by
  obtain ⟨-, -, e2, e3, -⟩ := idx_facts t
  unfold iblk0
  rw [View.read_apply]
  show V c main_v1 _ = V c main_v1 _
  congr 1
  funext a
  apply Fin.ext
  match a with
  | ⟨0, _⟩ => show win0_1.index t 0 * 1024 + 1 * k.val = k.val; rw [e2]; omega
  | ⟨1, _⟩ => show win0_1.index t 1 * 1024 + 1 * o.val = o.val; rw [e3]; omega

/-- The bias block at any point is the whole bias row. -/
theorem blk_b (c : Dev nD) (t : Fin cfg0.N) (u : Fin 1) (o : Fin 1024) :
    (iblk0 V c 2 t : Vec Ideal S1x1024 .f32) (ix2 u o) = (V c main_v6 : S1x1024.Idx → EReal) (ix2 u o) := by
  obtain ⟨-, -, -, -, e4, e5, -⟩ := idx_facts t
  unfold iblk0
  rw [View.read_apply]
  show V c main_v6 _ = V c main_v6 _
  congr 1
  funext a
  apply Fin.ext
  match a with
  | ⟨0, _⟩ => show win0_2.index t 0 * 1 + 1 * u.val = u.val; rw [e4]; omega
  | ⟨1, _⟩ => show win0_2.index t 1 * 1024 + 1 * o.val = o.val; rw [e5]; omega

/-- What point t writes back is block t of the one function lin of the entry arrays. -/
theorem flushed_eq (c : Dev nD) (t : Fin cfg0.N) :
    (dat0 V c).flushed 3 t
      = ((cfg0.win 3).blk t).view.read (Elt Ideal) (lin (V c main_v9) (V c main_v1) (V c main_v6)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨-, -, -, -, -, -, e6, e7⟩ := idx_facts t
  have hN : t.val < 16 := by have h := t.isLt; have e : cfg0.N = 16 := N_0; omega
  funext j
  rw [View.read_apply]
  show k0_pay1 (F := Ideal) (iblk0 V c 0 t) (iblk0 V c 1 t) (iblk0 V c 2 t) (ix2 (j 0) (j 1)) = _
  refine (lin0_pay (iblk0 V c 0 t) (iblk0 V c 1 t) (iblk0 V c 2 t) (j 0) (j 1)).trans ?_
  have hj0 : (j 0).val < 1024 := (j 0).isLt
  let r : Fin 16384 := ⟨t.val * 1024 + (j 0).val, by omega⟩
  have he : ((cfg0.win 3).blk t).view.emb j = ix2 r (j 1) := by
    funext a
    apply Fin.ext
    match a with
    | ⟨0, _⟩ => show win0_3.index t 0 * 1024 + 1 * (j 0).val = t.val * 1024 + (j 0).val; rw [e6]; omega
    | ⟨1, _⟩ => show win0_3.index t 1 * 1024 + 1 * (j 1).val = (j 1).val; rw [e7]; omega
  rw [he]
  show _ = linAt (V c main_v9) (V c main_v1) (V c main_v6) r (j 1)
  unfold linAt
  rw [blk_b V c t 0 (j 1)]
  refine congrArg (· + _) (Finset.sum_congr rfl fun k _ => ?_)
  rw [blk_x V c t (j 0) k r rfl, blk_w V c t k (j 1)]

/-- An index of the result is in point t's block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v11).slice (win0_3.rect t)).set ↔ _
  rw [View.set_slice_whole, Rect.mem_set_unit]
  exact Iff.rfl

/-- Every index of the result is in the block of the point that holds its row: point r / 1024. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6]; show (i 0).val / 1024 * 1024 ≤ (i 0).val ∧ (i 0).val < (i 0).val / 1024 * 1024 + 1024; omega
  | ⟨1, _⟩ =>
    show win0_3.index t (1 : Fin 2) * 1024 ≤ (i 1).val ∧ (i 1).val < win0_3.index t (1 : Fin 2) * 1024 + 1024
    rw [e7]; omega

/-- The result array after the region: lin of the arrays the region was entered with. -/
theorem final (c : Dev nD) :
    (dat0 V c).arrAt 3 cfg0.N = lin (V c main_v9) (V c main_v1) (V c main_v6) :=
  (dat0 V c).arrAt_eq_of_cover 3 _ (fun t _ => flushed_eq V c t) cover

end Cert.KernelIdeal.Lin0Value

end
-- ==== Proof.Lin1Value.lean ====
/-
  What the second projection region leaves in its result array, as one function of the arrays it is entered with.

  The region runs 16 grid points. Point t reads rows 1024·t … 1024·t + 1023 of the flattened input x, the whole
  matrix w and the bias row b, and writes back the same rows of the result. So entry (r, o) of the result, whichever
  point covers row r, is the sum over k of x(r, k) · w(k, o), plus b(0, o): the blocks tile the array, each is the
  restriction of that one function, and together they cover it.
-/
import proofs.«116437_j17970143166479_1_alg».proof.Proof.Gen.KernelIdeal.Frame
import proofs.«116437_j17970143166479_1_alg».proof.Proof.LinBody

set_option maxRecDepth 16384

noncomputable section

open scoped BigOperators

namespace Cert.KernelIdeal.Lin1Value

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Entry (r, o) of rows · matrix + bias row. -/
def linAt (x : S16384x1024.Idx → EReal) (w : S1024x1024.Idx → EReal) (b : S1x1024.Idx → EReal)
    (r : Fin 16384) (o : Fin 1024) : EReal :=
  (∑ k : Fin 1024, x (ix2 r k) * w (ix2 k o)) + b (ix2 (0 : Fin 1) o)

/-- The whole result array. -/
def lin (x : S16384x1024.Idx → EReal) (w : S1024x1024.Idx → EReal) (b : S1x1024.Idx → EReal) : S16384x1024.Idx → EReal :=
  fun i => linAt x w b (i 0) (i 1)

/-- The printed index maps over the 16 points: the input and the result move one block of rows per point, the matrix
    and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t, entry (p, k), is the input's entry (1024·t + p, k). -/
theorem blk_x (c : Dev nD) (t : Fin cfg1.N) (p k : Fin 1024) (r : Fin 16384) (hr : r.val = t.val * 1024 + p.val) :
    (iblk1 V c 0 t : Vec Ideal S1024x1024 .f32) (ix2 p k) = (V c main_v10 : S16384x1024.Idx → EReal) (ix2 r k) := by
  obtain ⟨e0, e1, -⟩ := idx_facts t
  unfold iblk1
  rw [View.read_apply]
  show V c main_v10 _ = V c main_v10 _
  congr 1
  funext a
  apply Fin.ext
  match a with
  | ⟨0, _⟩ => show win1_0.index t 0 * 1024 + 1 * p.val = r.val; rw [e0, hr]; omega
  | ⟨1, _⟩ => show win1_0.index t 1 * 1024 + 1 * k.val = k.val; rw [e1]; omega

/-- The matrix block at any point is the whole matrix. -/
theorem blk_w (c : Dev nD) (t : Fin cfg1.N) (k o : Fin 1024) :
    (iblk1 V c 1 t : Vec Ideal S1024x1024 .bf16) (ix2 k o) = (V c main_v3 : S1024x1024.Idx → EReal) (ix2 k o) := by
  obtain ⟨-, -, e2, e3, -⟩ := idx_facts t
  unfold iblk1
  rw [View.read_apply]
  show V c main_v3 _ = V c main_v3 _
  congr 1
  funext a
  apply Fin.ext
  match a with
  | ⟨0, _⟩ => show win1_1.index t 0 * 1024 + 1 * k.val = k.val; rw [e2]; omega
  | ⟨1, _⟩ => show win1_1.index t 1 * 1024 + 1 * o.val = o.val; rw [e3]; omega

/-- The bias block at any point is the whole bias row. -/
theorem blk_b (c : Dev nD) (t : Fin cfg1.N) (u : Fin 1) (o : Fin 1024) :
    (iblk1 V c 2 t : Vec Ideal S1x1024 .f32) (ix2 u o) = (V c main_v7 : S1x1024.Idx → EReal) (ix2 u o) := by
  obtain ⟨-, -, -, -, e4, e5, -⟩ := idx_facts t
  unfold iblk1
  rw [View.read_apply]
  show V c main_v7 _ = V c main_v7 _
  congr 1
  funext a
  apply Fin.ext
  match a with
  | ⟨0, _⟩ => show win1_2.index t 0 * 1 + 1 * u.val = u.val; rw [e4]; omega
  | ⟨1, _⟩ => show win1_2.index t 1 * 1024 + 1 * o.val = o.val; rw [e5]; omega

/-- What point t writes back is block t of the one function lin of the entry arrays. -/
theorem flushed_eq (c : Dev nD) (t : Fin cfg1.N) :
    (dat1 V c).flushed 3 t
      = ((cfg1.win 3).blk t).view.read (Elt Ideal) (lin (V c main_v10) (V c main_v3) (V c main_v7)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨-, -, -, -, -, -, e6, e7⟩ := idx_facts t
  have hN : t.val < 16 := by have h := t.isLt; have e : cfg1.N = 16 := N_1; omega
  funext j
  rw [View.read_apply]
  show k1_pay1 (F := Ideal) (iblk1 V c 0 t) (iblk1 V c 1 t) (iblk1 V c 2 t) (ix2 (j 0) (j 1)) = _
  refine (lin1_pay (iblk1 V c 0 t) (iblk1 V c 1 t) (iblk1 V c 2 t) (j 0) (j 1)).trans ?_
  have hj0 : (j 0).val < 1024 := (j 0).isLt
  let r : Fin 16384 := ⟨t.val * 1024 + (j 0).val, by omega⟩
  have he : ((cfg1.win 3).blk t).view.emb j = ix2 r (j 1) := by
    funext a
    apply Fin.ext
    match a with
    | ⟨0, _⟩ => show win1_3.index t 0 * 1024 + 1 * (j 0).val = t.val * 1024 + (j 0).val; rw [e6]; omega
    | ⟨1, _⟩ => show win1_3.index t 1 * 1024 + 1 * (j 1).val = (j 1).val; rw [e7]; omega
  rw [he]
  show _ = linAt (V c main_v10) (V c main_v3) (V c main_v7) r (j 1)
  unfold linAt
  rw [blk_b V c t 0 (j 1)]
  refine congrArg (· + _) (Finset.sum_congr rfl fun k _ => ?_)
  rw [blk_x V c t (j 0) k r rfl, blk_w V c t k (j 1)]

/-- An index of the result is in point t's block iff each coordinate is in the block's range on its axis. -/
theorem mem_blk (t : Fin cfg1.N) (i : S16384x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v13).slice (win1_3.rect t)).set ↔ _
  rw [View.set_slice_whole, Rect.mem_set_unit]
  exact Iff.rfl

/-- Every index of the result is in the block of the point that holds its row: point r / 1024. -/
theorem cover (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 16 := N_1
  let t : Fin cfg1.N := ⟨(i 0).val / 1024, by rw [hN]; omega⟩
  obtain ⟨-, -, -, -, -, -, e6, e7⟩ := idx_facts t
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    rw [e6]; show (i 0).val / 1024 * 1024 ≤ (i 0).val ∧ (i 0).val < (i 0).val / 1024 * 1024 + 1024; omega
  | ⟨1, _⟩ =>
    show win1_3.index t (1 : Fin 2) * 1024 ≤ (i 1).val ∧ (i 1).val < win1_3.index t (1 : Fin 2) * 1024 + 1024
    rw [e7]; omega

/-- The result array after the region: lin of the arrays the region was entered with. -/
theorem final (c : Dev nD) :
    (dat1 V c).arrAt 3 cfg1.N = lin (V c main_v10) (V c main_v3) (V c main_v7) :=
  (dat1 V c).arrAt_eq_of_cover 3 _ (fun t _ => flushed_eq V c t) cover

end Cert.KernelIdeal.Lin1Value

end
-- ==== Proof.AttnBody.lean ====
/-
  What one grid point of the attention kernel computes, at the extended reals.

  The body loads 256 rows of the projected queries, all 1024 rows of the projected keys and of the values of one batch,
  the output matrix (contracted coordinate first) and the bias row. For each of its 256 rows it forms the scores
  against every key row, takes their softmax (shifted by the row's maximum, which is the larger of the starting word
  and the fold of max over the row from that word), averages the value rows with those weights, scales by the word
  for 1/32, multiplies by the output matrix and adds the bias. Read at entry (u, p, o) of the stored block that is
  entry o of the output row of Spec.lean built from row p of the queries: the narrowing to sixteen bits between the
  stages changes nothing at the extended reals, and each product into a zero accumulator is the bare sum.
-/
import proofs.«116437_j17970143166479_1_alg».proof.Proof.Gen.KernelIdeal.Skeleton
import proofs.«116437_j17970143166479_1_alg».proof.Proof.Spec
import proofs.«116437_j17970143166479_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBody

open Cert.KernelIdeal Cert.KernelIdeal.Gen Idealize.ShloMosaic Idealize.ShloMosaic.ValueIdx Cert.AttnSpec Cert.LibColumn

/-! ## q · kᵀ: both operands contracted along their last axis -/

theorem lhsT_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhsT_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhsT_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhsT_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The scores product into a zero accumulator, read at (p, s): the sum over k of l(p, k) · r(s, k). -/
theorem matmulT_apply {φ₁ φ₂ : FTy} (l : FVec Ideal S256x1024 φ₁) (r : FVec Ideal S1024x1024 φ₂) (p : Fin 256) (s : Fin 1024) :
    matmul dot_S256x1024_S1024x1024_S256x1024_1_1_0_0_n_n none l r (constant S256x1024 .f32 0x00000000#32) (ix2 p s)
      = ∑ k : Fin 1024, l (ix2 p k) * r (ix2 s k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p s) ((contrEquiv1 dot_S256x1024_S1024x1024_S256x1024_1_1_0_0_n_n 1024 rfl rfl).symm k) = ix2 p k := funext fun a => Fin.ext (by
    match a with
    | ⟨0, _⟩ => exact lhsT_0 _ _
    | ⟨1, _⟩ => exact (lhsT_1 _ _).trans hk)
  have er : dot_S256x1024_S1024x1024_S256x1024_1_1_0_0_n_n.rhsIdx (ix2 p s) ((contrEquiv1 dot_S256x1024_S1024x1024_S256x1024_1_1_0_0_n_n 1024 rfl rfl).symm k) = ix2 s k := funext fun a => Fin.ext (by
    match a with
    | ⟨0, _⟩ => exact rhsT_0 _ _
    | ⟨1, _⟩ => exact (rhsT_1 _ _).trans hk)
  rw [el, er]

/-! ## The plain product of a [256, 1024] block with a [1024, 1024] matrix -/

theorem lhsQ_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsQ_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsQ_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsQ_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The plain product into a zero accumulator, read at (p, o): the sum over k of l(p, k) · r(k, o). -/
theorem matmulQ_apply {φ₁ φ₂ : FTy} (l : FVec Ideal S256x1024 φ₁) (r : FVec Ideal S1024x1024 φ₂) (p : Fin 256) (o : Fin 1024) :
    matmul dot_S256x1024_S1024x1024_S256x1024_1_0_0_1_n_n none l r (constant S256x1024 .f32 0x00000000#32) (ix2 p o)
      = ∑ k : Fin 1024, l (ix2 p k) * r (ix2 k o) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p o) ((contrEquiv1 dot_S256x1024_S1024x1024_S256x1024_1_0_0_1_n_n 1024 rfl rfl).symm k) = ix2 p k := funext fun a => Fin.ext (by
    match a with
    | ⟨0, _⟩ => exact lhsQ_0 _ _
    | ⟨1, _⟩ => exact (lhsQ_1 _ _).trans hk)
  have er : dot_S256x1024_S1024x1024_S256x1024_1_0_0_1_n_n.rhsIdx (ix2 p o) ((contrEquiv1 dot_S256x1024_S1024x1024_S256x1024_1_0_0_1_n_n 1024 rfl rfl).symm k) = ix2 k o := funext fun a => Fin.ext (by
    match a with
    | ⟨0, _⟩ => exact (rhsQ_0 _ _).trans hk
    | ⟨1, _⟩ => exact rhsQ_1 _ _)
  rw [el, er]

/-! ## The two row reductions -/

/-- The maximum over a row of a [256, 1024] block, at row p: the fold of max over the row's coordinates from the
    starting word's value. -/
theorem rowMaxK_apply (sc : FVec Ideal S256x1024 .f32) (hφ : FKind.Formats .f32)
    (hacc : (0xFF800000#32 : BitVec 32) = FKind.maximumf.neutral .f32 hφ) (p : Fin 256) :
    multiReduction .maximumf [1] S256 sc 0xFF800000#32 reduces_S256x1024_S256 hφ hacc (ix1 p)
      = (Finset.univ : Finset (Fin 1024)).fold max (Ideal.ofBits .f32 0xFF800000#32) (fun s => sc (ix2 p s)) := by
  refine (Ideal.multiReduction_maximumf_single sc _ reduces_S256x1024_S256 hφ hacc (ix1 p)).trans ?_
  have e : (sc ∘ reduces_S256x1024_S256.lift (ix1 p)) = fun s => sc (ix2 p s) :=
    funext fun k => congrArg sc (lift2_last reduces_S256x1024_S256 p k)
  rw [e]
  rfl

/-- The sum over a row of a [256, 1024] block, at row p. -/
theorem rowSumK_apply (e : FVec Ideal S256x1024 .f32) (hφ : FKind.Formats .f32)
    (hacc : (0x00000000#32 : BitVec 32) = FKind.add.neutral .f32 hφ) (p : Fin 256) :
    multiReduction .add [1] S256 e 0x00000000#32 reduces_S256x1024_S256 hφ hacc (ix1 p)
      = ∑ s : Fin 1024, e (ix2 p s) := by
  refine (Ideal.multiReduction_add_single e _ reduces_S256x1024_S256 hφ hacc (ix1 p)).trans ?_
  exact Finset.sum_congr rfl fun k _ => congrArg e (lift2_last reduces_S256x1024_S256 p k)

/-- A per-row value put in a column and broadcast across the row reads, at (p, s), the value of row p. -/
theorem column_apply (m : FVec Ideal S256 .f32) (p : Fin 256) (s : Fin 1024) :
    broadcastTo S256x1024 (shapeCast S256x1 m shapeCasts_S256_S256x1) broadcasts_S256x1_S256x1024 (ix2 p s) = m (ix1 p) := by
  rw [broadcastTo_a1_ab_apply, shapeCast_a_a1_apply]

/-- The exponential of a vector at an index is the exponential of the entry. -/
theorem exp_apply {s : Shape} {φ : FTy} (a : FVec Ideal s φ) (i : s.Idx) : exp a i = Ideal.exp (a i) := rfl

set_option backward.isDefEq.respectTransparency.types false in
/-- The attention kernel's stored value at (u, p, o): entry o of the output row built from row p of the query block,
    the key rows, the value rows, the output matrix and the bias row. -/
theorem attn_pay (v0 : Vec Ideal S1x256x1024 .bf16) (v2 : Vec Ideal S1x1024x1024 .bf16) (v4 : Vec Ideal S1x1024x1024 .f32)
    (v24 : Vec Ideal S1024x1024 .bf16) (v26 : Vec Ideal S1x1024 .f32) (u : Fin 1) (p : Fin 256) (o : Fin 1024) :
    k2_pay1 (F := Ideal) v0 v2 v4 v24 v26 (ix3 u p o)
      = attnRow (Ideal.ofBits .f32 0xFF800000#32) (fun o' => v0 (ix3 (0 : Fin 1) p o')) (fun s o' => v2 (ix3 (0 : Fin 1) s o'))
          (fun s h => v4 (ix3 (0 : Fin 1) s h)) (Ideal.ofBits .f32 0x3D000000#32) (fun h o' => v24 (ix2 h o'))
          (fun o' => v26 (ix2 (0 : Fin 1) o')) o := by
  unfold k2_pay1
  rw [shapeCast_ab_1ab_apply]
  simp only [addf_apply, matmulQ_apply, matmulT_apply, broadcastTo_1b_ab_apply, truncf_apply, mulf_apply, broadcast_apply,
    divf_apply, subf_apply, exp_apply, column_apply, maximumf_apply, shapeCast_1ab_ab_apply, shapeCast_self]
  rw [rowSumK_apply]
  simp only [matmulT_apply, broadcast_apply, subf_apply, exp_apply, column_apply, maximumf_apply, shapeCast_1ab_ab_apply]
  rw [rowMaxK_apply]
  simp only [matmulT_apply, shapeCast_1ab_ab_apply, Ideal.ofBits_def]
  unfold attnRow outRow ctxRow softRow scoreRow rowTop
  rfl

end Cert.KernelIdeal.AttnBody

end
-- ==== Proof.Attn2Value.lean ====
/-
  What the attention region leaves in its result array, as one function of the arrays it is entered with.

  The region runs 16 × 4 grid points; point t works on batch t / 4 and on rows 256·(t mod 4) … 256·(t mod 4) + 255 of
  that batch. It reads those rows of the projected queries, all rows of the projected keys and of the values of the
  batch, the whole output matrix and the bias row, and writes back the same rows of the result. So entry (n, r, o) of
  the result, whichever point covers row r of batch n, is entry o of the output row of Spec.lean built from query row
  (n, r), the key rows and value rows of batch n, the output matrix and the bias: the blocks tile the array, each is the
  restriction of that one function, and together they cover it.
-/
import proofs.«116437_j17970143166479_1_alg».proof.Proof.Gen.KernelIdeal.Frame
import proofs.«116437_j17970143166479_1_alg».proof.Proof.AttnBody

set_option maxRecDepth 16384

noncomputable section

open scoped BigOperators

namespace Cert.KernelIdeal.Attn2Value

open Cert.KernelIdeal Cert.KernelIdeal.Gen Cert.KernelIdeal.AttnBody Cert.AttnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (n, r, o) of the result: entry o of the output row of query row (n, r). -/
def attnAt (q3 k3 v : S16x1024x1024.Idx → EReal) (wo : S1024x1024.Idx → EReal) (bo : S1x1024.Idx → EReal)
    (n : Fin 16) (r o : Fin 1024) : EReal :=
  attnRow (Ideal.ofBits .f32 0xFF800000#32) (fun o' => q3 (ix3 n r o')) (fun s o' => k3 (ix3 n s o'))
    (fun s h => v (ix3 n s h)) (Ideal.ofBits .f32 0x3D000000#32) (fun h o' => wo (ix2 h o'))
    (fun o' => bo (ix2 (0 : Fin 1) o')) o

/-- The whole result array. -/
def attn (q3 k3 v : S16x1024x1024.Idx → EReal) (wo : S1024x1024.Idx → EReal) (bo : S1x1024.Idx → EReal) :
    S16x1024x1024.Idx → EReal :=
  fun i => attnAt q3 k3 v wo bo (i 0) (i 1) (i 2)

/-- The printed index maps over the 64 points: queries and result move with (batch, row block), keys and values with
    the batch alone, the output matrix and the bias row stay. -/
theorem idx_facts : ∀ t : Fin cfg2.N,
    win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val / 4 ∧ win2_5.index t (1 : Fin 3) = t.val % 4 ∧ win2_5.index t (2 : Fin 3) = 0 :=
  (by decide +kernel : ∀ t : Fin grid2.N, _)

/-- The query block at point t, entry (0, p, o), is the projected queries' entry (t / 4, 256·(t mod 4) + p, o). -/
theorem blk_q (c : Dev nD) (t : Fin cfg2.N) (p : Fin 256) (o : Fin 1024) (n : Fin 16) (r : Fin 1024)
    (hn : n.val = t.val / 4) (hr : r.val = t.val % 4 * 256 + p.val) :
    (iblk2 V c 0 t : Vec Ideal S1x256x1024 .bf16) (ix3 (0 : Fin 1) p o) = (V c main_v12 : S16x1024x1024.Idx → EReal) (ix3 n r o) := by
  obtain ⟨e0, e1, e2, -⟩ := idx_facts t
  unfold iblk2
  rw [View.read_apply]
  show V c main_v12 _ = V c main_v12 _
  congr 1
  funext a
  apply Fin.ext
  match a with
  | ⟨0, _⟩ => show win2_0.index t 0 * 1 + 1 * 0 = n.val; rw [e0, hn]; omega
  | ⟨1, _⟩ => show win2_0.index t 1 * 256 + 1 * p.val = r.val; rw [e1, hr]; omega
  | ⟨2, _⟩ => show win2_0.index t 2 * 1024 + 1 * o.val = o.val; rw [e2]; omega

/-- The key block at point t, entry (0, s, o), is the projected keys' entry (t / 4, s, o). -/
theorem blk_k (c : Dev nD) (t : Fin cfg2.N) (s o : Fin 1024) (n : Fin 16) (hn : n.val = t.val / 4) :
    (iblk2 V c 1 t : Vec Ideal S1x1024x1024 .bf16) (ix3 (0 : Fin 1) s o) = (V c main_v14 : S16x1024x1024.Idx → EReal) (ix3 n s o) := by
  obtain ⟨-, -, -, e3, e4, e5, -⟩ := idx_facts t
  unfold iblk2
  rw [View.read_apply]
  show V c main_v14 _ = V c main_v14 _
  congr 1
  funext a
  apply Fin.ext
  match a with
  | ⟨0, _⟩ => show win2_1.index t 0 * 1 + 1 * 0 = n.val; rw [e3, hn]; omega
  | ⟨1, _⟩ => show win2_1.index t 1 * 1024 + 1 * s.val = s.val; rw [e4]; omega
  | ⟨2, _⟩ => show win2_1.index t 2 * 1024 + 1 * o.val = o.val; rw [e5]; omega

/-- The value block at point t, entry (0, s, h), is the values' entry (t / 4, s, h). -/
theorem blk_v (c : Dev nD) (t : Fin cfg2.N) (s h : Fin 1024) (n : Fin 16) (hn : n.val = t.val / 4) :
    (iblk2 V c 2 t : Vec Ideal S1x1024x1024 .f32) (ix3 (0 : Fin 1) s h) = (V c main_arg2 : S16x1024x1024.Idx → EReal) (ix3 n s h) := by
  obtain ⟨-, -, -, -, -, -, e6, e7, e8, -⟩ := idx_facts t
  unfold iblk2
  rw [View.read_apply]
  show V c main_arg2 _ = V c main_arg2 _
  congr 1
  funext a
  apply Fin.ext
  match a with
  | ⟨0, _⟩ => show win2_2.index t 0 * 1 + 1 * 0 = n.val; rw [e6, hn]; omega
  | ⟨1, _⟩ => show win2_2.index t 1 * 1024 + 1 * s.val = s.val; rw [e7]; omega
  | ⟨2, _⟩ => show win2_2.index t 2 * 1024 + 1 * h.val = h.val; rw [e8]; omega

/-- The output-matrix block at any point is the whole matrix. -/
theorem blk_w (c : Dev nD) (t : Fin cfg2.N) (h o : Fin 1024) :
    (iblk2 V c 3 t : Vec Ideal S1024x1024 .bf16) (ix2 h o) = (V c main_v5 : S1024x1024.Idx → EReal) (ix2 h o) := by
  obtain ⟨-, -, -, -, -, -, -, -, -, e9, e10, -⟩ := idx_facts t
  unfold iblk2
  rw [View.read_apply]
  show V c main_v5 _ = V c main_v5 _
  congr 1
  funext a
  apply Fin.ext
  match a with
  | ⟨0, _⟩ => show win2_3.index t 0 * 1024 + 1 * h.val = h.val; rw [e9]; omega
  | ⟨1, _⟩ => show win2_3.index t 1 * 1024 + 1 * o.val = o.val; rw [e10]; omega

/-- The bias block at any point is the whole bias row. -/
theorem blk_b (c : Dev nD) (t : Fin cfg2.N) (u : Fin 1) (o : Fin 1024) :
    (iblk2 V c 4 t : Vec Ideal S1x1024 .f32) (ix2 u o) = (V c main_v8 : S1x1024.Idx → EReal) (ix2 u o) := by
  obtain ⟨-, -, -, -, -, -, -, -, -, -, -, e11, e12, -⟩ := idx_facts t
  unfold iblk2
  rw [View.read_apply]
  show V c main_v8 _ = V c main_v8 _
  congr 1
  funext a
  apply Fin.ext
  match a with
  | ⟨0, _⟩ => show win2_4.index t 0 * 1 + 1 * u.val = u.val; rw [e11]; omega
  | ⟨1, _⟩ => show win2_4.index t 1 * 1024 + 1 * o.val = o.val; rw [e12]; omega

/-- What point t writes back is block t of the one function attn of the entry arrays. -/
theorem flushed_eq (c : Dev nD) (t : Fin cfg2.N) :
    (dat2 V c).flushed 5 t
      = ((cfg2.win 5).blk t).view.read (Elt Ideal)
          (attn (V c main_v12) (V c main_v14) (V c main_arg2) (V c main_v5) (V c main_v8)) := by
  show (cfg2.win 5).cut (grid2.coords t) ((dat2 V c).after 5 t) = _
  rw [after2_5]
  unfold out2_5
  rw [View.canon_unit_zero hz3]
  simp only [View.ld_unit_zero (S := S1x256x1024) hz3, View.ld_unit_zero (S := S1x1024x1024) hz3,
    View.ld_unit_zero (S := S1024x1024) hz2, View.ld_unit_zero (S := S1x1024) hz2]
  obtain ⟨-, -, -, -, -, -, -, -, -, -, -, -, -, e13, e14, e15⟩ := idx_facts t
  have hN : t.val < 64 := by have h := t.isLt; have e : cfg2.N = 64 := N_2; omega
  funext j
  rw [View.read_apply]
  show k2_pay1 (F := Ideal) (iblk2 V c 0 t) (iblk2 V c 1 t) (iblk2 V c 2 t) (iblk2 V c 3 t) (iblk2 V c 4 t)
      (ix3 (j 0) (j 1) (j 2)) = _
  refine (attn_pay (iblk2 V c 0 t) (iblk2 V c 1 t) (iblk2 V c 2 t) (iblk2 V c 3 t) (iblk2 V c 4 t) (j 0) (j 1) (j 2)).trans ?_
  have hj0 : (j 0).val < 1 := (j 0).isLt
  have hj1 : (j 1).val < 256 := (j 1).isLt
  let n : Fin 16 := ⟨t.val / 4, by omega⟩
  let r : Fin 1024 := ⟨t.val % 4 * 256 + (j 1).val, by omega⟩
  have he : ((cfg2.win 5).blk t).view.emb j = ix3 n r (j 2) := by
    funext a
    apply Fin.ext
    match a with
    | ⟨0, _⟩ => show win2_5.index t 0 * 1 + 1 * (j 0).val = t.val / 4; rw [e13]; omega
    | ⟨1, _⟩ => show win2_5.index t 1 * 256 + 1 * (j 1).val = t.val % 4 * 256 + (j 1).val; rw [e14]; omega
    | ⟨2, _⟩ => show win2_5.index t 2 * 1024 + 1 * (j 2).val = (j 2).val; rw [e15]; omega
  rw [he]
  show _ = attnAt (V c main_v12) (V c main_v14) (V c main_arg2) (V c main_v5) (V c main_v8) n r (j 2)
  unfold attnAt
  have hq : (fun o' : Fin 1024 => (iblk2 V c 0 t : Vec Ideal S1x256x1024 .bf16) (ix3 (0 : Fin 1) (j 1) o'))
      = fun o' => (V c main_v12 : S16x1024x1024.Idx → EReal) (ix3 n r o') :=
    funext fun o' => blk_q V c t (j 1) o' n r rfl rfl
  have hk : (fun (s o' : Fin 1024) => (iblk2 V c 1 t : Vec Ideal S1x1024x1024 .bf16) (ix3 (0 : Fin 1) s o'))
      = fun s o' => (V c main_v14 : S16x1024x1024.Idx → EReal) (ix3 n s o') :=
    funext fun s => funext fun o' => blk_k V c t s o' n rfl
  have hv : (fun (s h : Fin 1024) => (iblk2 V c 2 t : Vec Ideal S1x1024x1024 .f32) (ix3 (0 : Fin 1) s h))
      = fun s h => (V c main_arg2 : S16x1024x1024.Idx → EReal) (ix3 n s h) :=
    funext fun s => funext fun h => blk_v V c t s h n rfl
  have hw : (fun (h o' : Fin 1024) => (iblk2 V c 3 t : Vec Ideal S1024x1024 .bf16) (ix2 h o'))
      = fun h o' => (V c main_v5 : S1024x1024.Idx → EReal) (ix2 h o') :=
    funext fun h => funext fun o' => blk_w V c t h o'
  have hb : (fun o' : Fin 1024 => (iblk2 V c 4 t : Vec Ideal S1x1024 .f32) (ix2 (0 : Fin 1) o'))
      = fun o' => (V c main_v8 : S1x1024.Idx → EReal) (ix2 (0 : Fin 1) o') :=
    funext fun o' => blk_b V c t 0 o'
  rw [hq, hk, hv, hw, hb]

/-- An index of the result is in point t's block iff each coordinate is in the block's range on its axis. -/
theorem mem_blk (t : Fin cfg2.N) (i : S16x1024x1024.Idx) :
    i ∈ ((cfg2.win 5).blk t).view.set ↔ ∀ a : Fin 3, win2_5.index t a * S1x256x1024.size a ≤ (i a).val ∧ (i a).val < win2_5.index t a * S1x256x1024.size a + S1x256x1024.size a := by
  show i ∈ ((View.whole main_v15).slice (win2_5.rect t)).set ↔ _
  rw [View.set_slice_whole, Rect.mem_set_unit]
  exact Iff.rfl

/-- Every index (n, r, o) of the result is in the block of point 4·n + r / 256. -/
theorem cover (i : S16x1024x1024.Idx) :
    ∃ t : Fin cfg2.N, (cfg2.win 5).flush t = true ∧ i ∈ ((cfg2.win 5).blk t).view.set := by
  have hi0 : (i 0).val < 16 := (i 0).isLt
  have hi1 : (i 1).val < 1024 := (i 1).isLt
  have hi2 : (i 2).val < 1024 := (i 2).isLt
  have hN : cfg2.N = 64 := N_2
  let t : Fin cfg2.N := ⟨(i 0).val * 4 + (i 1).val / 256, by rw [hN]; omega⟩
  obtain ⟨-, -, -, -, -, -, -, -, -, -, -, -, -, e13, e14, e15⟩ := idx_facts t
  refine ⟨t, flush2_5 t, ?_⟩
  rw [mem_blk]
  intro a
  match a with
  | ⟨0, _⟩ =>
    show win2_5.index t (0 : Fin 3) * 1 ≤ (i 0).val ∧ (i 0).val < win2_5.index t (0 : Fin 3) * 1 + 1
    rw [e13]; show ((i 0).val * 4 + (i 1).val / 256) / 4 * 1 ≤ (i 0).val ∧ (i 0).val < ((i 0).val * 4 + (i 1).val / 256) / 4 * 1 + 1; omega
  | ⟨1, _⟩ =>
    show win2_5.index t (1 : Fin 3) * 256 ≤ (i 1).val ∧ (i 1).val < win2_5.index t (1 : Fin 3) * 256 + 256
    rw [e14]; show ((i 0).val * 4 + (i 1).val / 256) % 4 * 256 ≤ (i 1).val ∧ (i 1).val < ((i 0).val * 4 + (i 1).val / 256) % 4 * 256 + 256; omega
  | ⟨2, _⟩ =>
    show win2_5.index t (2 : Fin 3) * 1024 ≤ (i 2).val ∧ (i 2).val < win2_5.index t (2 : Fin 3) * 1024 + 1024
    rw [e15]; omega

/-- The result array after the region: attn of the arrays the region was entered with. -/
theorem final (c : Dev nD) :
    (dat2 V c).arrAt 5 cfg2.N = attn (V c main_v12) (V c main_v14) (V c main_arg2) (V c main_v5) (V c main_v8) :=
  (dat2 V c).arrAt_eq_of_cover 5 _ (fun t _ => flushed_eq V c t) cover

end Cert.KernelIdeal.Attn2Value

end
-- ==== Proof.KernelValue.lean ====
/-
  What the kernel's program leaves in its result array, as the function G of Spec.lean of the nine arguments.

  The program is three regions among stretches of host operations. The first stretch transposes the three weight
  matrices, reshapes the three bias vectors to rows and flattens query and keys to 16384 rows. The first two regions
  project the flattened query and keys (rows · transposed weights + bias row); a reshape after each gives the
  projections back their batch axis. The third region takes the two projections, the values, the transposed output
  matrix and its bias row. Nothing else writes any of these arrays, so each is read at the last boundary as what its
  own operation left, and the regions' results compose: reading a flattened row i·1024 + j as row (i, j), a transposed
  matrix at (k, o) as the matrix at (o, k), and the scale word as 1/32, the composed function is G entry by entry.
-/
import proofs.«116437_j17970143166479_1_alg».proof.Proof.Gen.KernelIdeal.Frame
import proofs.«116437_j17970143166479_1_alg».proof.Proof.Lin0Value
import proofs.«116437_j17970143166479_1_alg».proof.Proof.Lin1Value
import proofs.«116437_j17970143166479_1_alg».proof.Proof.Attn2Value
import proofs.«116437_j17970143166479_1_alg».proof.Proof.Spec
import proofs.«116437_j17970143166479_1_alg».proof.Proof.LibColumn
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Cert.AttnSpec Cert.LibColumn
open Idealize.ShloMosaic Idealize.ShloMosaic.TcCoe Idealize.ShloMosaic.ValueIdx Idealize.ShloMosaic.StableHlo Idealize.SL.Sem

/-! ## The composed function of the arguments -/

/-- A weight matrix as the kernels take it: transposed (and narrowed, which changes nothing here). -/
abbrev wT (W : S1024x1024.Idx → EReal) : S1024x1024.Idx → EReal :=
  truncf (F := Ideal) .bf16 (transpose S1024x1024 [1, 0] W transposes_S1024x1024_S1024x1024_1_0) bitsLt_bf16_f32

/-- A bias vector as the kernels take it: a row. -/
abbrev bRow (b : S1024.Idx → EReal) : S1x1024.Idx → EReal := shapeCast S1x1024 b shapeCasts_S1024_S1x1024

/-- A projection as the third region takes it: the flattened input projected, the batch axis put back. -/
abbrev projK (x : S16x1024x1024.Idx → EReal) (W : S1024x1024.Idx → EReal) (b : S1024.Idx → EReal) : S16x1024x1024.Idx → EReal :=
  shapeCast S16x1024x1024
    (Lin0Value.lin (shapeCast S16384x1024 x shapeCasts_S16x1024x1024_S16384x1024) (wT W) (bRow b))
    shapeCasts_S16384x1024_S16x1024x1024

/-- The kernel's whole function of the nine arguments. -/
abbrev kernelFn (a0 a1 a2 : S16x1024x1024.Idx → EReal) (a3 : S1024x1024.Idx → EReal) (a4 : S1024.Idx → EReal)
    (a5 : S1024x1024.Idx → EReal) (a6 : S1024.Idx → EReal) (a7 : S1024x1024.Idx → EReal) (a8 : S1024.Idx → EReal) :
    S16x1024x1024.Idx → EReal :=
  Attn2Value.attn (projK a0 a3 a4) (projK a1 a5 a6) a2 (wT a7) (bRow a8)

/-- The two projection regions leave the same function of their own arrays. -/
theorem lin1_eq : @Lin1Value.lin = @Lin0Value.lin := rfl

/-! ## One projected row -/

/-- Row (n, t) of a projection, entry o: the row of Spec.lean. -/
theorem projK_apply (x : S16x1024x1024.Idx → EReal) (W : S1024x1024.Idx → EReal) (b : S1024.Idx → EReal)
    (n : Fin 16) (t o : Fin 1024) :
    projK x W b (ix3 n t o) = projRow (cur3 x n t) (cur2 W) (cur1 b) o := by
  have hn : n.val < 16 := n.isLt
  have ht : t.val < 1024 := t.isLt
  let r : Fin 16384 := ⟨n.val * 1024 + t.val, by omega⟩
  show shapeCast S16x1024x1024 _ shapeCasts_S16384x1024_S16x1024x1024 (ix3 n t o) = _
  rw [shapeCast_mc_abc_apply _ _ n t o r rfl]
  show Lin0Value.linAt _ _ _ r o = _
  unfold Lin0Value.linAt projRow bRow wT
  rw [shapeCast_a_1a_apply]
  refine congrArg (· + _) (Finset.sum_congr rfl fun k _ => ?_)
  rw [shapeCast_abc_mc_apply _ _ r k n t rfl, truncf_apply, transpose_ix2_apply]
  rfl

/-! ## The whole function is G -/

/-- Entry by entry the kernel's function is G: the projections row by row, the output matrix transposed back, the
    bias row read as the vector, the scale word as 1/32. -/
theorem kernelFn_eq_G (a0 a1 a2 : S16x1024x1024.Idx → EReal) (a3 : S1024x1024.Idx → EReal) (a4 : S1024.Idx → EReal)
    (a5 : S1024x1024.Idx → EReal) (a6 : S1024.Idx → EReal) (a7 : S1024x1024.Idx → EReal) (a8 : S1024.Idx → EReal) :
    kernelFn a0 a1 a2 a3 a4 a5 a6 a7 a8
      = unc3 (G (Ideal.ofBits .f32 0xFF800000#32) (cur3 a0) (cur3 a1) (cur3 a2) (cur2 a3) (cur1 a4) (cur2 a5) (cur1 a6)
          (cur2 a7) (cur1 a8)) := by
  funext i
  obtain ⟨n, t, o, rfl⟩ : ∃ (n : Fin 16) (t o : Fin 1024), i = ix3 n t o := ⟨i 0, i 1, i 2, eq_ix3 i⟩
  show Attn2Value.attnAt (projK a0 a3 a4) (projK a1 a5 a6) a2 (wT a7) (bRow a8) n t o = G _ _ _ _ _ _ _ _ _ _ n t o
  unfold Attn2Value.attnAt G
  have hq : (fun o' : Fin 1024 => projK a0 a3 a4 (ix3 n t o')) = projRow (cur3 a0 n t) (cur2 a3) (cur1 a4) :=
    funext fun o' => projK_apply a0 a3 a4 n t o'
  have hk : (fun (s o' : Fin 1024) => projK a1 a5 a6 (ix3 n s o')) = fun s => projRow (cur3 a1 n s) (cur2 a5) (cur1 a6) :=
    funext fun s => funext fun o' => projK_apply a1 a5 a6 n s o'
  have hw : (fun (h o' : Fin 1024) => wT a7 (ix2 h o')) = fun h o' => cur2 a7 o' h :=
    funext fun h => funext fun o' => by unfold wT; rw [truncf_apply, transpose_ix2_apply]; rfl
  have hb : (fun o' : Fin 1024 => bRow a8 (ix2 (0 : Fin 1) o')) = cur1 a8 :=
    funext fun o' => by unfold bRow; rw [shapeCast_a_1a_apply]; rfl
  rw [hq, hk, hw, hb, ofBits_inv32]
  rfl

end Cert.KernelIdeal.KernelValue

end
-- ==== Proof.KernelFold.lean ====
/-
  The result array at the end of the kernel's program, read back through the program's segments.

  The buffer contents at the boundaries between segments are a fold from the launch memory: a stretch of host
  operations applies its operations, a region replaces its own arrays by what its write-backs leave and keeps every
  other buffer. An array is read at a later boundary by walking back to the segment that wrote it: across a region
  that does not own it and across a stretch that does not write it nothing changes. So the result array holds the third
  region's function of the two reshaped projections, the values, the transposed output matrix and the bias row; each
  projection is its region's function of the flattened input, transposed weights and bias row; and those are the first
  stretch's operations of the arguments.
-/
import proofs.«116437_j17970143166479_1_alg».proof.Proof.Gen.KernelIdeal.Frame
import proofs.«116437_j17970143166479_1_alg».proof.Proof.KernelValue

set_option maxRecDepth 16384

noncomputable section

namespace Cert.KernelIdeal.KernelFold

open Cert.KernelIdeal Cert.KernelIdeal.Gen Cert.KernelIdeal.KernelValue
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## What the first stretch of host operations leaves -/

/-- The flattened query. -/
theorem W1_v9 (c : Dev nD) : (W1 m ρ c (Proc.devRef .tc main_v9) : S16384x1024.Idx → EReal) = shapeCast S16384x1024 (m ((c : Thread nD τ).loc main_arg0)) shapeCasts_S16x1024x1024_S16384x1024 := by
  show StableHlo.after hostOps0 (W0 m ρ c) (Proc.devRef .tc main_v9) = _
  after_results
  rfl
/-- The flattened keys. -/
theorem W1_v10 (c : Dev nD) : (W1 m ρ c (Proc.devRef .tc main_v10) : S16384x1024.Idx → EReal) = shapeCast S16384x1024 (m ((c : Thread nD τ).loc main_arg1)) shapeCasts_S16x1024x1024_S16384x1024 := by
  show StableHlo.after hostOps0 (W0 m ρ c) (Proc.devRef .tc main_v10) = _
  after_results
  rfl
/-- The query weights transposed. -/
theorem W1_v1 (c : Dev nD) : (W1 m ρ c (Proc.devRef .tc main_v1) : S1024x1024.Idx → EReal) = wT (m ((c : Thread nD τ).loc main_arg3)) := by
  show StableHlo.after hostOps0 (W0 m ρ c) (Proc.devRef .tc main_v1) = _
  after_results
/-- The key weights transposed. -/
theorem W1_v3 (c : Dev nD) : (W1 m ρ c (Proc.devRef .tc main_v3) : S1024x1024.Idx → EReal) = wT (m ((c : Thread nD τ).loc main_arg5)) := by
  show StableHlo.after hostOps0 (W0 m ρ c) (Proc.devRef .tc main_v3) = _
  after_results
/-- The output weights transposed. -/
theorem W1_v5 (c : Dev nD) : (W1 m ρ c (Proc.devRef .tc main_v5) : S1024x1024.Idx → EReal) = wT (m ((c : Thread nD τ).loc main_arg7)) := by
  show StableHlo.after hostOps0 (W0 m ρ c) (Proc.devRef .tc main_v5) = _
  after_results
/-- The query bias as a row. -/
theorem W1_v6 (c : Dev nD) : (W1 m ρ c (Proc.devRef .tc main_v6) : S1x1024.Idx → EReal) = bRow (m ((c : Thread nD τ).loc main_arg4)) := by
  show StableHlo.after hostOps0 (W0 m ρ c) (Proc.devRef .tc main_v6) = _
  after_results
  rfl
/-- The key bias as a row. -/
theorem W1_v7 (c : Dev nD) : (W1 m ρ c (Proc.devRef .tc main_v7) : S1x1024.Idx → EReal) = bRow (m ((c : Thread nD τ).loc main_arg6)) := by
  show StableHlo.after hostOps0 (W0 m ρ c) (Proc.devRef .tc main_v7) = _
  after_results
  rfl
/-- The output bias as a row. -/
theorem W1_v8 (c : Dev nD) : (W1 m ρ c (Proc.devRef .tc main_v8) : S1x1024.Idx → EReal) = bRow (m ((c : Thread nD τ).loc main_arg8)) := by
  show StableHlo.after hostOps0 (W0 m ρ c) (Proc.devRef .tc main_v8) = _
  after_results
  rfl

/-! ## Arrays nothing later writes, walked back to where they were written -/

/-- The values reach the third region as launched. -/
theorem W5_arg2 (c : Dev nD) : W5 m ρ c (Proc.devRef .tc main_arg2) = W0 m ρ c (Proc.devRef .tc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The transposed output weights reach the third region as the first stretch left them. -/
theorem W5_v5 (c : Dev nD) : W5 m ρ c (Proc.devRef .tc main_v5) = W1 m ρ c (Proc.devRef .tc main_v5) :=
  calc W5 m ρ c (Proc.devRef .tc main_v5)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)
/-- The output bias row reaches the third region as the first stretch left it. -/
theorem W5_v8 (c : Dev nD) : W5 m ρ c (Proc.devRef .tc main_v8) = W1 m ρ c (Proc.devRef .tc main_v8) :=
  calc W5 m ρ c (Proc.devRef .tc main_v8)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := W4_of_ne m ρ c main_v8 (by decide)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)
/-- The reshaped query projection reaches the third region as the second stretch left it. -/
theorem W5_v12 (c : Dev nD) : W5 m ρ c (Proc.devRef .tc main_v12) = W3 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
/-- The flattened keys reach the second region as the first stretch left them. -/
theorem W3_v10 (c : Dev nD) : W3 m ρ c (Proc.devRef .tc main_v10) = W1 m ρ c (Proc.devRef .tc main_v10) :=
  calc W3 m ρ c (Proc.devRef .tc main_v10)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)
/-- The transposed key weights reach the second region as the first stretch left them. -/
theorem W3_v3 (c : Dev nD) : W3 m ρ c (Proc.devRef .tc main_v3) = W1 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
/-- The key bias row reaches the second region as the first stretch left it. -/
theorem W3_v7 (c : Dev nD) : W3 m ρ c (Proc.devRef .tc main_v7) = W1 m ρ c (Proc.devRef .tc main_v7) :=
  calc W3 m ρ c (Proc.devRef .tc main_v7)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v7) := W2_of_ne m ρ c main_v7 (by decide)

/-! ## The two reshapes between the regions -/

/-- The second stretch gives the first region's result its batch axis back. -/
theorem W3_v12 (c : Dev nD) : (W3 m ρ c (Proc.devRef .tc main_v12) : S16x1024x1024.Idx → EReal)
    = shapeCast S16x1024x1024 (W2 m ρ c (Proc.devRef .tc main_v11) : S16384x1024.Idx → EReal) shapeCasts_S16384x1024_S16x1024x1024 := by
  show StableHlo.after hostOps1 (W2 m ρ c) (Proc.devRef .tc main_v12) = _
  after_results
  rfl

/-- The third stretch gives the second region's result its batch axis back. -/
theorem W5_v14 (c : Dev nD) : (W5 m ρ c (Proc.devRef .tc main_v14) : S16x1024x1024.Idx → EReal)
    = shapeCast S16x1024x1024 (W4 m ρ c (Proc.devRef .tc main_v13) : S16384x1024.Idx → EReal) shapeCasts_S16384x1024_S16x1024x1024 := by
  show StableHlo.after hostOps2 (W4 m ρ c) (Proc.devRef .tc main_v14) = _
  after_results
  rfl

/-! ## The regions' results -/

/-- The first region's result: the projection of the flattened query. -/
theorem W2_v11 (c : Dev nD) : (W2 m ρ c (Proc.devRef .tc main_v11) : S16384x1024.Idx → EReal)
    = Lin0Value.lin (shapeCast S16384x1024 (m ((c : Thread nD τ).loc main_arg0)) shapeCasts_S16x1024x1024_S16384x1024) (wT (m ((c : Thread nD τ).loc main_arg3))) (bRow (m ((c : Thread nD τ).loc main_arg4))) := by
  refine (W2_arr m ρ c 3).trans ((Lin0Value.final (V1 m ρ) c).trans ?_)
  show Lin0Value.lin (W1 m ρ c (Proc.devRef .tc main_v9)) (W1 m ρ c (Proc.devRef .tc main_v1)) (W1 m ρ c (Proc.devRef .tc main_v6)) = _
  rw [W1_v9, W1_v1, W1_v6]

/-- The second region's result: the projection of the flattened keys. -/
theorem W4_v13 (c : Dev nD) : (W4 m ρ c (Proc.devRef .tc main_v13) : S16384x1024.Idx → EReal)
    = Lin0Value.lin (shapeCast S16384x1024 (m ((c : Thread nD τ).loc main_arg1)) shapeCasts_S16x1024x1024_S16384x1024) (wT (m ((c : Thread nD τ).loc main_arg5))) (bRow (m ((c : Thread nD τ).loc main_arg6))) := by
  refine (W4_arr m ρ c 3).trans ((Lin1Value.final (V3 m ρ) c).trans ?_)
  rw [lin1_eq]
  show Lin0Value.lin (W3 m ρ c (Proc.devRef .tc main_v10)) (W3 m ρ c (Proc.devRef .tc main_v3)) (W3 m ρ c (Proc.devRef .tc main_v7)) = _
  rw [W3_v10, W3_v3, W3_v7, W1_v10, W1_v3, W1_v7]

/-- The result array at the last boundary: the kernel's function of the nine arguments. -/
theorem result (c : Dev nD) : (W6 m ρ c (Proc.devRef .tc main_v15) : S16x1024x1024.Idx → EReal)
    = kernelFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ((Attn2Value.final (V5 m ρ) c).trans ?_)
  show Attn2Value.attn (W5 m ρ c (Proc.devRef .tc main_v12)) (W5 m ρ c (Proc.devRef .tc main_v14))
      (W5 m ρ c (Proc.devRef .tc main_arg2)) (W5 m ρ c (Proc.devRef .tc main_v5)) (W5 m ρ c (Proc.devRef .tc main_v8)) = _
  rw [W5_v12, W3_v12, W2_v11, W5_v14, W4_v13, W5_arg2, W5_v5, W1_v5, W5_v8, W1_v8]

end Cert.KernelIdeal.KernelFold

end
-- ==== Proof.lean ====
/-
  The attention kernel against its reference: scaled-by-1/32 softmax attention over projected queries and keys, with an
  output projection, on arrays of shape [16, 1024, 1024].

  The kernel's program projects the flattened query and keys in two grids of 16 row blocks, then runs the attention
  and the output projection on a grid of 16 batches × 4 blocks of 256 rows; the reference is one chain of whole-array
  operations. At the extended reals both compute the function G of Spec.lean, row by row: a product along an axis is the
  sum over that axis's coordinate however it is tiled, the narrowing between stages is the identity, the softmax is
  the same sequence of operations on both sides, and the kernel's factor 2⁻⁵ is the reference's division by √1024 = 32,
  on every extended real, so the precondition that the inputs are finite is never opened. The kernel's result array is
  read off the run of its three regions (LaunchValue.lean: the generated run with the result named), walked back
  through the program's segments (KernelFold.lean) to the three regions' functions (Lin0Value, Lin1Value, Attn2Value
  over LinBody, AttnBody) and composed (KernelValue.lean); the reference's off its run, one operation at a time
  (RefG.lean). Both frames of the kernel are the generated ones; the reference's is its run with the result dropped;
  the kernel's idealization rewrote nothing.
-/
import proofs.«116437_j17970143166479_1_alg».proof.Defs
import proofs.«116437_j17970143166479_1_alg».proof.Proof.Gen.Kernel
import proofs.«116437_j17970143166479_1_alg».proof.Proof.Gen.Kernel.Frame
import proofs.«116437_j17970143166479_1_alg».proof.Proof.Gen.KernelIdeal
import proofs.«116437_j17970143166479_1_alg».proof.Proof.Gen.KernelIdeal.Frame
import proofs.«116437_j17970143166479_1_alg».proof.Proof.Gen.ReferenceIdeal
import proofs.«116437_j17970143166479_1_alg».proof.Proof.Gen.ReferenceIdeal.Run
import proofs.«116437_j17970143166479_1_alg».proof.Proof.Gen.ReferenceIdeal.Read
import proofs.«116437_j17970143166479_1_alg».proof.Proof.Gen.Pre_finite_inputs
import proofs.«116437_j17970143166479_1_alg».proof.Proof.Spec
import proofs.«116437_j17970143166479_1_alg».proof.Proof.RefG
import proofs.«116437_j17970143166479_1_alg».proof.Proof.LaunchValue
import proofs.«116437_j17970143166479_1_alg».proof.Proof.KernelValue
import proofs.«116437_j17970143166479_1_alg».proof.Proof.KernelFold
import Idealize.ShloMosaic.Adequacy
import Idealize.ShloMosaic.Init

noncomputable section

namespace Cert.Proof

open Idealize.ShloMosaic Idealize.SL.Sem Cert.AttnSpec

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at G of the nine arguments. -/
theorem algebraic : Cert.algebraic_KernelIdeal_ReferenceIdeal := by
  intro m ρ m' ρ' _ hagree
  refine ⟨fun c => unc3 (G (Ideal.ofBits .f32 0xFF800000#32) (cur3 (m ((c.tc : Thread Cert.KernelIdeal.nD Cert.KernelIdeal.τ).loc Cert.KernelIdeal.main_arg0))) (cur3 (m ((c.tc : Thread Cert.KernelIdeal.nD Cert.KernelIdeal.τ).loc Cert.KernelIdeal.main_arg1))) (cur3 (m ((c.tc : Thread Cert.KernelIdeal.nD Cert.KernelIdeal.τ).loc Cert.KernelIdeal.main_arg2)))
    (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7))) (cur1 (m ((c.tc : Thread Cert.KernelIdeal.nD Cert.KernelIdeal.τ).loc Cert.KernelIdeal.main_arg8)))), ?_, ?_⟩
  · refine (θ_run Cert.KernelIdeal.defs _ _).mono (fun r h c => ⟨(h c).1.trans ?_, (h c).2⟩)
      (Cert.KernelIdeal.RunValue.run_result (F := Ideal) m ρ)
    exact (Cert.KernelIdeal.KernelFold.result m ρ c).trans (Cert.KernelIdeal.KernelValue.kernelFn_eq_G _ _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq]
    refine (Cert.RefG.v27_eq _ _ _ _ _ _ _ _ _).trans ?_
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
